-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S256x512 : Shape := ⟨2, ![256, 512]⟩
abbrev S256 : Shape := ⟨1, ![256]⟩
abbrev S256x256 : Shape := ⟨2, ![256, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x512 .f32) (main_arg1 : IVec S2x400000 32) (main_arg2 : FVec F S256x512 .f32) (main_arg3 : FVec F S256 .f32) (main_arg4 : FVec F S256x256 .f32) (main_arg5 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x512 : Shape := ⟨2, ![50000, 512]⟩
abbrev S2x400000 : Shape := ⟨2, ![2, 400000]⟩
abbrev S256x512 : Shape := ⟨2, ![256, 512]⟩
abbrev S256 : Shape := ⟨1, ![256]⟩
abbrev S256x256 : Shape := ⟨2, ![256, 256]⟩
abbrev S1x400000 : Shape := ⟨2, ![1, 400000]⟩
abbrev S400000 : Shape := ⟨1, ![400000]⟩
abbrev S512x256 : Shape := ⟨2, ![512, 256]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S50000 : Shape := ⟨1, ![50000]⟩
abbrev S400000x1 : Shape := ⟨2, ![400000, 1]⟩
abbrev S400000x256 : Shape := ⟨2, ![400000, 256]⟩
abbrev S50000x1 : Shape := ⟨2, ![50000, 1]⟩
abbrev S1x256 : Shape := ⟨2, ![1, 256]⟩

abbrev nBuf : Space → Nat
  | .hbm => 147
  | .vmem => 10
  | .smem => 0
  | _ => 0

abbrev hbmTy0_0 (i : Nat) : BufTy := match i % 128 with
  | 0 => ⟨S50000x512, .f32⟩
  | 1 => ⟨S2x400000, .i32⟩
  | 2 => ⟨S256x512, .f32⟩
  | 3 => ⟨S256, .f32⟩
  | 4 => ⟨S256x256, .f32⟩
  | 5 => ⟨S256, .f32⟩
  | 6 => ⟨S1x400000, .i32⟩
  | 7 => ⟨S400000, .i32⟩
  | 8 => ⟨S1x400000, .i32⟩
  | 9 => ⟨S400000, .i32⟩
  | 10 => ⟨S512x256, .f32⟩
  | 11 => ⟨S512x256, .bf16⟩
  | 12 => ⟨S256x256, .f32⟩
  | 13 => ⟨S256x256, .bf16⟩
  | 14 => ⟨S50000x256, .f32⟩
  | 15 => ⟨S_, .f32⟩
  | 16 => ⟨S50000, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S_, .f32⟩
  | 26 => ⟨S400000, .f32⟩
  | 27 => ⟨S50000, .f32⟩
  | 28 => ⟨S50000, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000, .f32⟩
  | 47 => ⟨S400000, .f32⟩
  | 48 => ⟨S_, .f32⟩
  | 49 => ⟨S50000x256, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x256, .f32⟩
  | 59 => ⟨S400000x1, .f32⟩
  | 60 => ⟨S400000x256, .f32⟩
  | 61 => ⟨S400000x256, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S50000x256, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S50000x256, .f32⟩
  | 83 => ⟨S_, .f32⟩
  | 84 => ⟨S50000, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S_, .f32⟩
  | 94 => ⟨S400000, .f32⟩
  | 95 => ⟨S50000, .f32⟩
  | 96 => ⟨S50000, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000, .f32⟩
  | 115 => ⟨S400000, .f32⟩
  | 116 => ⟨S_, .f32⟩
  | 117 => ⟨S50000x256, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x256, .f32⟩
  | 127 => ⟨S400000x1, .f32⟩
  | _ => ⟨S50000x512, .f32⟩

abbrev hbmTy0_1 (i : Nat) : BufTy := match i % 128 with
  | 0 => ⟨S400000x256, .f32⟩
  | 1 => ⟨S400000x256, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S50000x256, .f32⟩
  | 11 => ⟨S50000, .f32⟩
  | 12 => ⟨S50000x1, .f32⟩
  | 13 => ⟨S50000x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call0_cst : Ref sig .tc := ⟨.hbm, 79, rfl⟩
abbrev main_call0_v0 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_c_20 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_c_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  transposes_S256x512_S512x256_1_0 : S256x512.Transposes [1, 0] S512x256
  bitsLt_bf16_f32 : FTy.bits .bf16 < FTy.bits .f32
  transposes_S256x256_S256x256_1_0 : S256x256.Transposes [1, 0] S256x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x256 : S_.BroadcastsInDim S50000x256 (![] : Fin 0 → Fin S50000x256.rank)
  bcast_S400000x1_S400000x256_0_1 : S400000x1.BroadcastsInDim S400000x256 (![0, 1] : Fin 2 → Fin S400000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S2000x512_S512x256_S2000x256_1_0_0_1_n_n_wf : DotDims.WF S2000x512 S512x256 S2000x256 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S256x512 : Shape := ⟨2, ![256, 512]⟩
abbrev S256 : Shape := ⟨1, ![256]⟩
abbrev S256x256 : Shape := ⟨2, ![256, 256]⟩
abbrev S1x400000 : Shape := ⟨2, ![1, 400000]⟩
abbrev S400000 : Shape := ⟨1, ![400000]⟩
abbrev S512x256 : Shape := ⟨2, ![512, 256]⟩
abbrev S50000x256 : Shape := ⟨2, ![50000, 256]⟩
abbrev S_ : Shape := ⟨0, ![]⟩
abbrev S50000 : Shape := ⟨1, ![50000]⟩
abbrev S400000x1 : Shape := ⟨2, ![400000, 1]⟩
abbrev S400000x256 : Shape := ⟨2, ![400000, 256]⟩
abbrev S50000x1 : Shape := ⟨2, ![50000, 1]⟩
abbrev S1x256 : Shape := ⟨2, ![1, 256]⟩

abbrev nBuf : Space → Nat
  | .hbm => 145
  | .vmem => 0
  | .smem => 0
  | _ => 0

abbrev hbmTy0_0 (i : Nat) : BufTy := match i % 128 with
  | 0 => ⟨S50000x512, .f32⟩
  | 1 => ⟨S2x400000, .i32⟩
  | 2 => ⟨S256x512, .f32⟩
  | 3 => ⟨S256, .f32⟩
  | 4 => ⟨S256x256, .f32⟩
  | 5 => ⟨S256, .f32⟩
  | 6 => ⟨S1x400000, .i32⟩
  | 7 => ⟨S400000, .i32⟩
  | 8 => ⟨S1x400000, .i32⟩
  | 9 => ⟨S400000, .i32⟩
  | 10 => ⟨S512x256, .f32⟩
  | 11 => ⟨S50000x256, .f32⟩
  | 12 => ⟨S_, .f32⟩
  | 13 => ⟨S50000, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S_, .f32⟩
  | 23 => ⟨S400000, .f32⟩
  | 24 => ⟨S50000, .f32⟩
  | 25 => ⟨S50000, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000, .f32⟩
  | 44 => ⟨S400000, .f32⟩
  | 45 => ⟨S_, .f32⟩
  | 46 => ⟨S50000x256, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x256, .f32⟩
  | 56 => ⟨S400000x1, .f32⟩
  | 57 => ⟨S400000x256, .f32⟩
  | 58 => ⟨S400000x256, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S50000x256, .f32⟩
  | 68 => ⟨S50000, .f32⟩
  | 69 => ⟨S50000x1, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S256x256, .f32⟩
  | 80 => ⟨S50000x256, .f32⟩
  | 81 => ⟨S_, .f32⟩
  | 82 => ⟨S50000, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S_, .f32⟩
  | 92 => ⟨S400000, .f32⟩
  | 93 => ⟨S50000, .f32⟩
  | 94 => ⟨S50000, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000, .f32⟩
  | 113 => ⟨S400000, .f32⟩
  | 114 => ⟨S_, .f32⟩
  | 115 => ⟨S50000x256, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S400000x256, .f32⟩
  | 125 => ⟨S400000x1, .f32⟩
  | 126 => ⟨S400000x256, .f32⟩
  | 127 => ⟨S400000x256, .f32⟩
  | _ => ⟨S50000x512, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S50000x256, .f32⟩
  | 9 => ⟨S50000, .f32⟩
  | 10 => ⟨S50000x1, .f32⟩
  | 11 => ⟨S50000x256, .f32⟩
  | 12 => ⟨S50000x256, .f32⟩
  | 13 => ⟨S50000x256, .f32⟩
  | 14 => ⟨S1x256, .f32⟩
  | 15 => ⟨S50000x256, .f32⟩
  | 16 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_cst : Ref sig .tc := ⟨.hbm, 76, rfl⟩
abbrev main_call0_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_c_20 : Ref sig .tc := ⟨.hbm, 116, rfl⟩
abbrev main_v86 : Ref sig .tc := ⟨.hbm, 117, rfl⟩
abbrev main_v87 : Ref sig .tc := ⟨.hbm, 118, rfl⟩
abbrev main_c_21 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_22 : Ref sig .tc := ⟨.hbm, 128, rfl⟩
abbrev main_v96 : Ref sig .tc := ⟨.hbm, 129, rfl⟩
abbrev main_v97 : Ref sig .tc := ⟨.hbm, 130, rfl⟩
abbrev main_c_23 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  transposes_S256x512_S512x256_1_0 : S256x512.Transposes [1, 0] S512x256
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x256 : S_.BroadcastsInDim S50000x256 (![] : Fin 0 → Fin S50000x256.rank)
  bcast_S400000x1_S400000x256_0_1 : S400000x1.BroadcastsInDim S400000x256 (![0, 1] : Fin 2 → Fin S400000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x256_S256x256_1_0 : S256x256.Transposes [1, 0] S256x256
  dot_S50000x512_S512x256_S50000x256_1_0_0_1_n_n_wf : DotDims.WF S50000x512 S512x256 S50000x256 [1] [0] [0] [1] [] []
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.GcnLayer.lean ====
/-
  One graph-convolution layer as both programs compute it on the host, as a function of the dense product `h` that feeds it.
  With `s`, `d` the two rows of the edge list (sources and destinations), a negative entry wrapped round by adding the node
  count, and `deg v = 1 + #{e | d e = v}` (a self loop and the incoming edges), the layer is

      out[v, :] = Σ_{e : d e = v} h[s e, :] · deg(s e)^(-1/2) · deg(d e)^(-1/2)  +  h[v, :] · deg(v)^(-1/2) · deg(v)^(-1/2)  +  b

  spelt with exactly the gathers, scatter-adds and broadcasts the two programs print. The kernel and the reference differ
  only in how `h` is produced (a blocked product on the matrix unit against one host product), so the layer is kept as ONE
  opaque function of `h`: nothing below ever looks inside it.
-/
import proofs.«148515_j14336600834353_1_alg».proof.Proof.Gen.KernelIdeal

noncomputable section

namespace Cert.KernelIdeal.Spec

open Cert.KernelIdeal Cert.KernelIdeal.Facts₀ Idealize.ShloMosaic

variable {F : FTy → Type} [FloatOps F]

/-- A vector with one entry per edge. -/
abbrev Edges (F : FTy → Type) [FloatOps F] : Type := (⟨S400000, .i32⟩ : BufTy).Contents (Elt F)
/-- A matrix with one row of 256 features per node. -/
abbrev Feat (F : FTy → Type) [FloatOps F] : Type := (⟨S50000x256, .f32⟩ : BufTy).Contents (Elt F)

/-- Row 0 of the edge list: the edges' sources. -/
def src (e : (⟨S2x400000, .i32⟩ : BufTy).Contents (Elt F)) : Edges F :=
  shapeCast _ (extractStridedSlice S1x400000 ![0, 0] e slices_S2x400000_S1x400000_0_0) shapeCasts_S1x400000_S400000

/-- Row 1 of the edge list: the edges' destinations. -/
def dst (e : (⟨S2x400000, .i32⟩ : BufTy).Contents (Elt F)) : Edges F :=
  shapeCast _ (extractStridedSlice S1x400000 ![1, 0] e slices_S2x400000_S1x400000_1_0) shapeCasts_S1x400000_S400000

/-- An endpoint vector as the column of start indices a gather or a scatter takes: an entry below zero is replaced by
    itself plus the node count, the others are kept. -/
def idxCol (v : Edges F) : (⟨S400000x1, .i32⟩ : BufTy).Contents (Elt F) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- `deg^(-1/2)` per node: ones, plus one per edge ending at the node, under the reciprocal square root. -/
def degInv (d : Edges F) : (⟨S50000, .f32⟩ : BufTy).Contents (Elt F) :=
  Host.rsqrt (Host.scatterAdd scatter_S50000_S400000x1_S400000_n_0_0_1
    (broadcastInDim S50000 ![] bcast_S_S50000 (constant S_ .f32 0x3F800000#32)) (idxCol d)
    (broadcastInDim S400000 ![] bcast_S_S400000 (constant S_ .f32 0x3F800000#32)))

/-- The layer: the normalised messages scatter-added at their destinations, the self-loop term, the bias. -/
def aggregate (h : Feat F) (s d : Edges F) (b : (⟨S256, .f32⟩ : BufTy).Contents (Elt F)) : Feat F :=
  addf (addf
    (Host.scatterAdd scatter_S50000x256_S400000x1_S400000x256_1_0_0_1
      (broadcastInDim S50000x256 ![] bcast_S_S50000x256 (constant S_ .f32 0x00000000#32)) (idxCol d)
      (mulf (Host.gather gather_S50000x256_S400000x1_S400000x256_1_0_n_n_0_1_1256 h (idxCol s))
        (broadcastInDim S400000x256 ![0, 1] bcast_S400000x1_S400000x256_0_1 (broadcastInDim S400000x1 ![0] bcast_S400000_S400000x1_0
          (mulf (Host.gather gather_S50000_S400000x1_S400000_n_0_n_n_0_1_1 (degInv d) (idxCol s))
            (Host.gather gather_S50000_S400000x1_S400000_n_0_n_n_0_1_1 (degInv d) (idxCol d)))))))
    (mulf h (broadcastInDim S50000x256 ![0, 1] bcast_S50000x1_S50000x256_0_1
      (broadcastInDim S50000x1 ![0] bcast_S50000_S50000x1_0 (mulf (degInv d) (degInv d))))))
    (broadcastInDim S50000x256 ![0, 1] bcast_S1x256_S50000x256_0_1 (broadcastInDim S1x256 ![1] bcast_S256_S1x256_1 b))

/-- The activation between the layers: the entrywise maximum with zero. -/
def relu (x : Feat F) : Feat F :=
  maximumf x (broadcastInDim S50000x256 ![] bcast_S_S50000x256 (constant S_ .f32 0x00000000#32))

end Cert.KernelIdeal.Spec

end
-- ==== Proof.RefLayers.lean ====
/-
  The reference's result as the layer function of Proof/GcnLayer.lean applied twice: its composed term is, operation for
  operation, `aggregate (h₂) s d b₂` with `h₂ = relu (aggregate (x · W₁ᵀ) s d b₁) · W₂ᵀ`, the two products being the host's
  `dot_general`. Both sides are the same tree of operations, so the equation holds by unfolding the names.
-/
import proofs.«148515_j14336600834353_1_alg».proof.Proof.Gen.ReferenceIdeal.Run
import proofs.«148515_j14336600834353_1_alg».proof.Proof.GcnLayer

noncomputable section

namespace Cert.ReferenceIdeal.Layers

open Idealize.ShloMosaic Idealize.ShloMosaic.TcCoe Idealize.SL.Sem
open Cert.KernelIdeal.Spec

variable {F : FTy → Type} [FloatOps F]

/-- The reference's first dense product, `x · W₁ᵀ`, as the host computes it. -/
def dense1 (x : (⟨Cert.ReferenceIdeal.S50000x512, .f32⟩ : BufTy).Contents (Elt F)) (w : (⟨Cert.ReferenceIdeal.S256x512, .f32⟩ : BufTy).Contents (Elt F)) : Feat F :=
  Host.dotGeneral Cert.ReferenceIdeal.dot_S50000x512_S512x256_S50000x256_1_0_0_1_n_n none x
    (transpose Cert.ReferenceIdeal.S512x256 [1, 0] w Cert.ReferenceIdeal.Facts₀.transposes_S256x512_S512x256_1_0)

/-- The reference's second dense product, `y · W₂ᵀ`. -/
def dense2 (y : Feat F) (w : (⟨Cert.ReferenceIdeal.S256x256, .f32⟩ : BufTy).Contents (Elt F)) : Feat F :=
  Host.dotGeneral Cert.ReferenceIdeal.dot_S50000x256_S256x256_S50000x256_1_0_0_1_n_n none y
    (transpose Cert.ReferenceIdeal.S256x256 [1, 0] w Cert.ReferenceIdeal.Facts₀.transposes_S256x256_S256x256_1_0)

open Cert.ReferenceIdeal in
/-- The reference's result: two layers over its two host products. -/
theorem res_eq (m : (ℓ : Loc nD τ sig) → Buf (Elt F) ℓ) (c : Dev nD) :
    Cert.ReferenceIdeal.Value.res_main_v110 (F := F) m c
      = aggregate (dense2 (relu (aggregate (dense1 (m ((c.tc : Thread nD τ).loc main_arg0)) (m ((c.tc : Thread nD τ).loc main_arg2)))
            (src (m ((c.tc : Thread nD τ).loc main_arg1))) (dst (m ((c.tc : Thread nD τ).loc main_arg1))) (m ((c.tc : Thread nD τ).loc main_arg3))))
          (m ((c.tc : Thread nD τ).loc main_arg4)))
        (src (m ((c.tc : Thread nD τ).loc main_arg1))) (dst (m ((c.tc : Thread nD τ).loc main_arg1))) (m ((c.tc : Thread nD τ).loc main_arg5)) := by
  unfold Cert.ReferenceIdeal.Value.res_main_v110
  rfl

end Cert.ReferenceIdeal.Layers

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Dense0.lean ====
/-
  Region 0 of the kernel program is a dense product tiled over the rows: grid point `t` (of 25) fetches rows
  `2000·t … 2000·t + 1999` of the left operand [50000 × 512] and the whole right operand [512 × 256], multiplies them on the matrix
  unit into a zero accumulator, and writes the [2000 × 256] result back as rows `2000·t …` of the output. At the extended reals the
  matrix unit's product is the plain row-by-column sum and a change of float format is the identity, so entry (p, q) of what
  point `t` writes is row `2000·t + p` of the left operand against column `q` of the right one: the block of ONE whole-array
  function, the full product. The 25 row blocks tile the output, so after the region the output array IS the product of
  the two arrays as the region found them.
-/
import proofs.«148515_j14336600834353_1_alg».proof.Proof.Gen.KernelIdeal.Frame
import proofs.«148515_j14336600834353_1_alg».proof.Proof.LibSageSpec
import Idealize.ShloMosaic.Lib.Pipeline.Value
import Idealize.ShloMosaic.Lib.ValueIdx

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx Idealize.ShloMosaic.SageSpec
open Idealize.ShloMosaic.Pipeline (Dat)

theorem hz : (![0, 0] : Fin 2 → Nat) = fun _ => 0 := funext fun a => by fin_cases a <;> rfl

/-! ## The matrix unit's dimension numbers are the plain "rows by columns" ones -/

theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_contr (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs_contr (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem plain : PlainDot (n := 2000) (k := 512) (m := 256) dot_S2000x512_S512x256_S2000x256_1_0_0_1_n_n where
  rank := rfl
  size := fun _ => rfl
  l0 := lhs_row
  l1 := fun i q _ => lhs_contr i q
  r0 := fun i q _ => rhs_contr i q
  r1 := rhs_col

/-! ## The body's stored value at an index -/

/-- Entry (p, q) of the block the body stores: row `p` of the loaded left block against column `q` of the loaded right operand. -/
theorem pay_at (x0 : Vec Ideal S2000x512 .f32) (x1 : Vec Ideal S512x256 .bf16) (j : S2000x256.Idx) :
    k0_pay1 x0 x1 j = rowDot (n := 2000) (k := 512) (m := 256) (fun i => x0 i) (fun i => x1 i) (j 0) (j 1) := by
  unfold k0_pay1
  simp only [shapeCast_self]
  exact matmul_zero_at plain none _ _ j

/-- The full product of the two arrays: entry (P, q) is row `P` against column `q`. -/
def prod (X : Vec Ideal S50000x512 .f32) (W : Vec Ideal S512x256 .bf16) : Vec Ideal S50000x256 .f32 :=
  fun i => rowDot (n := 50000) (k := 512) (m := 256) (fun j => X j) (fun j => W j) (i 0) (i 1)

/-- A stored block is a block of the full product: if the loaded left block is rows `2000·r …` of `X` and the loaded right
    operand is `W`, the body's value at (p, q) is the product's entry (2000·r + p, q). -/
theorem pay_is_block (X : Vec Ideal S50000x512 .f32) (W : Vec Ideal S512x256 .bf16) (x0 : Vec Ideal S2000x512 .f32) (x1 : Vec Ideal S512x256 .bf16) (r : ℕ)
    (hx0 : ∀ (p : Fin 2000) (k : Fin 512) (P : Fin 50000), P.val = r * 2000 + p.val → x0 (ix2 p k) = X (ix2 P k))
    (hx1 : x1 = W) (j : S2000x256.Idx) (i : S50000x256.Idx) (hi0 : (i 0).val = r * 2000 + (j 0).val) (hi1 : (i 1).val = (j 1).val) :
    k0_pay1 x0 x1 j = prod X W i := by
  rw [pay_at]
  unfold prod rowDot
  subst hx1
  have hq : (i 1 : Fin 256) = (j 1 : Fin 256) := Fin.ext hi1
  refine Finset.sum_congr rfl fun κ _ => ?_
  have h1 : x0 (ix2 (j 0) κ) = X (ix2 (i 0) κ) := hx0 (j 0) κ (i 0) hi0
  have h2 : x1 (ix2 κ (j 1)) = x1 (ix2 κ (i 1)) := congrArg (fun z : Fin 256 => x1 (ix2 κ z)) hq.symm
  exact congrArg₂ (fun a b : EReal => a * b) h1 h2

/-! ## The windows' blocks, read off the arrays as the region finds them -/

variable (V : (c : Dev nD) → (b : Ref sig .tc) → Buf (Elt Ideal) ((c : Thread nD τ).loc b))

/-- The printed index maps over the grid: the left operand's and the output's blocks move down the rows with the point, the
    right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000·t …` of its array. -/
theorem left_block (c : Dev nD) (t : Fin cfg0.N) (p : Fin 2000) (k : Fin 512) (P : Fin 50000) (hP : P.val = t.val * 2000 + p.val) :
    (iblk0 V c 0 t : Vec Ideal S2000x512 .f32) (ix2 p k) = (V c main_arg0 : Vec Ideal S50000x512 .f32) (ix2 P k) := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = P.val; rw [e0, hP]; omega
  | ⟨1, _⟩ => show win0_0.index t (1 : Fin 2) * 512 + 1 * k.val = k.val; rw [e1]; omega

/-- The right operand's block at every point is its whole array. -/
theorem right_block (c : Dev nD) (t : Fin cfg0.N) :
    (iblk0 V c 1 t : Vec Ideal S512x256 .bf16) = (V c main_v5 : Vec Ideal S512x256 .bf16) := by
  obtain ⟨-, -, e2, e3, -, -⟩ := idx_facts t
  funext y
  unfold iblk0
  rw [View.read_apply]
  show V c main_v5 _ = V c main_v5 _
  refine congrArg _ (funext fun a => Fin.ext ?_)
  match a with
  | ⟨0, _⟩ => show win0_1.index t (0 : Fin 2) * 512 + 1 * (y 0).val = (y 0).val; rw [e2]; omega
  | ⟨1, _⟩ => show win0_1.index t (1 : Fin 2) * 256 + 1 * (y 1).val = (y 1).val; rw [e3]; omega

/-! ## What a point writes back, the cover, the array after the region -/

/-- What point `t` writes back is block `t` of the full product of the two arrays as the region finds them. -/
theorem flushed_eq (c : Dev nD) (t : Fin cfg0.N) :
    (dat0 V c).flushed 2 t = ((cfg0.win 2).blk t).view.read (Elt Ideal) (prod (V c main_arg0) (V c main_v5)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨-, -, -, -, e4, e5⟩ := idx_facts t
  funext j
  show k0_pay1 (iblk0 V c 0 t) (iblk0 V c 1 t) j = prod (V c main_arg0) (V c main_v5) (((cfg0.win 2).blk t).view.emb j)
  refine pay_is_block (V c main_arg0) (V c main_v5) (iblk0 V c 0 t) (iblk0 V c 1 t) t.val
    (fun p k P hP => left_block V c t p k P hP) (right_block V c t) j _ ?_ ?_
  · show win0_2.index t (0 : Fin 2) * 2000 + 1 * (j 0).val = t.val * 2000 + (j 0).val; rw [e4]; omega
  · show win0_2.index t (1 : Fin 2) * 256 + 1 * (j 1).val = (j 1).val; rw [e5]; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v8).slice (win0_2.rect t)).set ↔ _
  rw [View.set_slice_whole, Rect.mem_set_unit]
  exact Iff.rfl

/-- Every row of the output lies in the block of the point `row / 2000`. -/
theorem cover (i : S50000x256.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4]; show (i 0).val / 2000 * 2000 ≤ (i 0).val ∧ (i 0).val < (i 0).val / 2000 * 2000 + 2000; omega
  | ⟨1, _⟩ => show win0_2.index t (1 : Fin 2) * 256 ≤ (i 1).val ∧ (i 1).val < win0_2.index t (1 : Fin 2) * 256 + 256; rw [e5]; omega

/-- After the region the output array is the full product of the two input arrays as the region found them. -/
theorem final (c : Dev nD) : (dat0 V c).arrAt 2 cfg0.N = prod (V c main_arg0) (V c main_v5) :=
  (dat0 V c).arrAt_eq_of_cover 2 (prod (V c main_arg0) (V c main_v5)) (fun t _ => flushed_eq V c t) cover

end Cert.KernelIdeal.Dense0

end
-- ==== Proof.Dense1.lean ====
/-
  Region 1 of the kernel program is a dense product tiled over the rows: grid point `t` (of 25) fetches rows
  `2000·t … 2000·t + 1999` of the left operand [50000 × 256] and the whole right operand [256 × 256], multiplies them on the matrix
  unit into a zero accumulator, and writes the [2000 × 256] result back as rows `2000·t …` of the output. At the extended reals the
  matrix unit's product is the plain row-by-column sum and a change of float format is the identity, so entry (p, q) of what
  point `t` writes is row `2000·t + p` of the left operand against column `q` of the right one: the block of ONE whole-array
  function, the full product. The 25 row blocks tile the output, so after the region the output array IS the product of
  the two arrays as the region found them.
-/
import proofs.«148515_j14336600834353_1_alg».proof.Proof.Gen.KernelIdeal.Frame
import proofs.«148515_j14336600834353_1_alg».proof.Proof.LibSageSpec
import Idealize.ShloMosaic.Lib.Pipeline.Value
import Idealize.ShloMosaic.Lib.ValueIdx

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx Idealize.ShloMosaic.SageSpec
open Idealize.ShloMosaic.Pipeline (Dat)

theorem hz : (![0, 0] : Fin 2 → Nat) = fun _ => 0 := funext fun a => by fin_cases a <;> rfl

/-! ## The matrix unit's dimension numbers are the plain "rows by columns" ones -/

theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem plain : PlainDot (n := 2000) (k := 256) (m := 256) dot_S2000x256_S256x256_S2000x256_1_0_0_1_n_n where
  rank := rfl
  size := fun _ => rfl
  l0 := lhs_row
  l1 := fun i q _ => lhs_contr i q
  r0 := fun i q _ => rhs_contr i q
  r1 := rhs_col

/-! ## The body's stored value at an index -/

/-- Entry (p, q) of the block the body stores: row `p` of the loaded left block against column `q` of the loaded right operand. -/
theorem pay_at (x0 : Vec Ideal S2000x256 .f32) (x1 : Vec Ideal S256x256 .bf16) (j : S2000x256.Idx) :
    k1_pay1 x0 x1 j = rowDot (n := 2000) (k := 256) (m := 256) (fun i => x0 i) (fun i => x1 i) (j 0) (j 1) := by
  unfold k1_pay1
  simp only [shapeCast_self]
  exact matmul_zero_at plain none _ _ j

/-- The full product of the two arrays: entry (P, q) is row `P` against column `q`. -/
def prod (X : Vec Ideal S50000x256 .f32) (W : Vec Ideal S256x256 .bf16) : Vec Ideal S50000x256 .f32 :=
  fun i => rowDot (n := 50000) (k := 256) (m := 256) (fun j => X j) (fun j => W j) (i 0) (i 1)

/-- A stored block is a block of the full product: if the loaded left block is rows `2000·r …` of `X` and the loaded right
    operand is `W`, the body's value at (p, q) is the product's entry (2000·r + p, q). -/
theorem pay_is_block (X : Vec Ideal S50000x256 .f32) (W : Vec Ideal S256x256 .bf16) (x0 : Vec Ideal S2000x256 .f32) (x1 : Vec Ideal S256x256 .bf16) (r : ℕ)
    (hx0 : ∀ (p : Fin 2000) (k : Fin 256) (P : Fin 50000), P.val = r * 2000 + p.val → x0 (ix2 p k) = X (ix2 P k))
    (hx1 : x1 = W) (j : S2000x256.Idx) (i : S50000x256.Idx) (hi0 : (i 0).val = r * 2000 + (j 0).val) (hi1 : (i 1).val = (j 1).val) :
    k1_pay1 x0 x1 j = prod X W i := by
  rw [pay_at]
  unfold prod rowDot
  subst hx1
  have hq : (i 1 : Fin 256) = (j 1 : Fin 256) := Fin.ext hi1
  refine Finset.sum_congr rfl fun κ _ => ?_
  have h1 : x0 (ix2 (j 0) κ) = X (ix2 (i 0) κ) := hx0 (j 0) κ (i 0) hi0
  have h2 : x1 (ix2 κ (j 1)) = x1 (ix2 κ (i 1)) := congrArg (fun z : Fin 256 => x1 (ix2 κ z)) hq.symm
  exact congrArg₂ (fun a b : EReal => a * b) h1 h2

/-! ## The windows' blocks, read off the arrays as the region finds them -/

variable (V : (c : Dev nD) → (b : Ref sig .tc) → Buf (Elt Ideal) ((c : Thread nD τ).loc b))

/-- The printed index maps over the grid: the left operand's and the output's blocks move down the rows with the point, the
    right operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `2000·t …` of its array. -/
theorem left_block (c : Dev nD) (t : Fin cfg1.N) (p : Fin 2000) (k : Fin 256) (P : Fin 50000) (hP : P.val = t.val * 2000 + p.val) :
    (iblk1 V c 0 t : Vec Ideal S2000x256 .f32) (ix2 p k) = (V c main_v60 : Vec Ideal S50000x256 .f32) (ix2 P k) := by
  obtain ⟨e0, e1, -, -, -, -⟩ := idx_facts t
  unfold iblk1
  rw [View.read_apply]
  show V c main_v60 _ = V c main_v60 _
  refine congrArg _ (funext fun a => Fin.ext ?_)
  match a with
  | ⟨0, _⟩ => show win1_0.index t (0 : Fin 2) * 2000 + 1 * p.val = P.val; rw [e0, hP]; omega
  | ⟨1, _⟩ => show win1_0.index t (1 : Fin 2) * 256 + 1 * k.val = k.val; rw [e1]; omega

/-- The right operand's block at every point is its whole array. -/
theorem right_block (c : Dev nD) (t : Fin cfg1.N) :
    (iblk1 V c 1 t : Vec Ideal S256x256 .bf16) = (V c main_v7 : Vec Ideal S256x256 .bf16) := by
  obtain ⟨-, -, e2, e3, -, -⟩ := idx_facts t
  funext y
  unfold iblk1
  rw [View.read_apply]
  show V c main_v7 _ = V c main_v7 _
  refine congrArg _ (funext fun a => Fin.ext ?_)
  match a with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

/-! ## What a point writes back, the cover, the array after the region -/

/-- What point `t` writes back is block `t` of the full product of the two arrays as the region finds them. -/
theorem flushed_eq (c : Dev nD) (t : Fin cfg1.N) :
    (dat1 V c).flushed 2 t = ((cfg1.win 2).blk t).view.read (Elt Ideal) (prod (V c main_v60) (V c main_v7)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨-, -, -, -, e4, e5⟩ := idx_facts t
  funext j
  show k1_pay1 (iblk1 V c 0 t) (iblk1 V c 1 t) j = prod (V c main_v60) (V c main_v7) (((cfg1.win 2).blk t).view.emb j)
  refine pay_is_block (V c main_v60) (V c main_v7) (iblk1 V c 0 t) (iblk1 V c 1 t) t.val
    (fun p k P hP => left_block V c t p k P hP) (right_block V c t) j _ ?_ ?_
  · show win1_2.index t (0 : Fin 2) * 2000 + 1 * (j 0).val = t.val * 2000 + (j 0).val; rw [e4]; omega
  · show win1_2.index t (1 : Fin 2) * 256 + 1 * (j 1).val = (j 1).val; rw [e5]; omega

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v61).slice (win1_2.rect t)).set ↔ _
  rw [View.set_slice_whole, Rect.mem_set_unit]
  exact Iff.rfl

/-- Every row of the output lies in the block of the point `row / 2000`. -/
theorem cover (i : S50000x256.Idx) : ∃ t : Fin cfg1.N, (cfg1.win 2).flush t = true ∧ i ∈ ((cfg1.win 2).blk t).view.set := by
  have hN : cfg1.N = 25 := N_1
  have hi0 : (i 0).val < 50000 := (i 0).isLt
  have hi1 : (i 1).val < 256 := (i 1).isLt
  let t : Fin cfg1.N := ⟨(i 0).val / 2000, by rw [hN]; omega⟩
  obtain ⟨-, -, -, -, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4]; show (i 0).val / 2000 * 2000 ≤ (i 0).val ∧ (i 0).val < (i 0).val / 2000 * 2000 + 2000; omega
  | ⟨1, _⟩ => show win1_2.index t (1 : Fin 2) * 256 ≤ (i 1).val ∧ (i 1).val < win1_2.index t (1 : Fin 2) * 256 + 256; rw [e5]; omega

/-- After the region the output array is the full product of the two input arrays as the region found them. -/
theorem final (c : Dev nD) : (dat1 V c).arrAt 2 cfg1.N = prod (V c main_v60) (V c main_v7) :=
  (dat1 V c).arrAt_eq_of_cover 2 (prod (V c main_v60) (V c main_v7)) (fun t _ => flushed_eq V c t) cover

end Cert.KernelIdeal.Dense1

end
-- ==== Proof.KernelLayers.lean ====
/-
  The kernel program's result, followed from the launch memory through its six segments. The first host stretch cuts
  the edge list into sources and destinations and transposes the two weight matrices (the change to bf16 is the identity
  at the extended reals); region 0 leaves `h₁ = x · W₁ᵀ` in its output array; the second stretch is the layer function of
  Proof/GcnLayer.lean on `h₁` and the third the activation; region 1 leaves `h₂ = relu(…) · W₂ᵀ`; the last stretch is the layer
  function again. A buffer no segment writes is read back unchanged through the segments in between.
-/
import proofs.«148515_j14336600834353_1_alg».proof.Proof.KernelNamed
import proofs.«148515_j14336600834353_1_alg».proof.Proof.GcnLayer
import proofs.«148515_j14336600834353_1_alg».proof.Proof.Dense0
import proofs.«148515_j14336600834353_1_alg».proof.Proof.Dense1

set_option maxRecDepth 16384

noncomputable section

namespace Cert.KernelIdeal.Layers

open Cert.KernelIdeal Cert.KernelIdeal.Gen Cert.KernelIdeal.Spec
open Idealize.ShloMosaic Idealize.ShloMosaic.TcCoe Idealize.SL.Sem Idealize.ShloMosaic.StableHlo

/-- The first weight matrix as the first region's right operand: transposed (and cast, which changes nothing here). -/
def w1t (w : (⟨S256x512, .f32⟩ : BufTy).Contents (Elt Ideal)) : (⟨S512x256, .bf16⟩ : BufTy).Contents (Elt Ideal) :=
  truncf (F := Ideal) .bf16 (transpose S512x256 [1, 0] w Facts₀.transposes_S256x512_S512x256_1_0) Facts₀.bitsLt_bf16_f32
/-- The second weight matrix as the second region's right operand. -/
def w2t (w : (⟨S256x256, .f32⟩ : BufTy).Contents (Elt Ideal)) : (⟨S256x256, .bf16⟩ : BufTy).Contents (Elt Ideal) :=
  truncf (F := Ideal) .bf16 (transpose S256x256 [1, 0] w Facts₀.transposes_S256x256_S256x256_1_0) Facts₀.bitsLt_bf16_f32

/-! ## The host stretches between the regions, each as a function of the contents `Z` it starts from -/

/-- The second host stretch computes the layer function of region 0's output, the edge list's two rows and the first bias. -/
theorem layer1_stretch (Z : Valuation τ sig (Elt Ideal)) : after hostOps1 Z (Proc.devRef .tc main_v59)
    = aggregate (Z (Proc.devRef .tc main_v8)) (Z (Proc.devRef .tc main_v1)) (Z (Proc.devRef .tc main_v3)) (Z (Proc.devRef .tc main_arg3)) := by
  after_results_simp <;> rfl

/-- The third host stretch is the activation of the first layer's output. -/
theorem act_stretch (Z : Valuation τ sig (Elt Ideal)) : after hostOps1_1 Z (Proc.devRef .tc main_v60) = relu (Z (Proc.devRef .tc main_v59)) := by
  after_results <;> rfl

/-- The last host stretch computes the layer function of region 1's output, the edge list's two rows and the second bias. -/
theorem layer2_stretch (Z : Valuation τ sig (Elt Ideal)) : after hostOps2 Z (Proc.devRef .tc main_v112)
    = aggregate (Z (Proc.devRef .tc main_v61)) (Z (Proc.devRef .tc main_v1)) (Z (Proc.devRef .tc main_v3)) (Z (Proc.devRef .tc main_arg5)) := by
  after_results_simp <;> rfl

variable (m : (ℓ : Loc nD τ sig) → Buf (Elt Ideal) ℓ) (ρ : Dev nD → PrngReg)

/-! ## After the first host stretch (region 0's entry) -/

/-- The sources: row 0 of the edge list. -/
theorem W1_src (c : Dev nD) : W1 m ρ c (Proc.devRef .tc main_v1) = src (m ((c : Thread nD τ).loc main_arg1)) := by
  show after hostOps0 (W0 m ρ c) (Proc.devRef .tc main_v1) = _
  after_results; rfl
/-- The destinations: row 1 of the edge list. -/
theorem W1_dst (c : Dev nD) : W1 m ρ c (Proc.devRef .tc main_v3) = dst (m ((c : Thread nD τ).loc main_arg1)) := by
  show after hostOps0 (W0 m ρ c) (Proc.devRef .tc main_v3) = _
  after_results; rfl
/-- Region 0's right operand: the first weight matrix transposed. -/
theorem W1_w1t (c : Dev nD) : W1 m ρ c (Proc.devRef .tc main_v5) = w1t (m ((c : Thread nD τ).loc main_arg2)) := by
  show after hostOps0 (W0 m ρ c) (Proc.devRef .tc main_v5) = _
  after_results; rfl
/-- Region 1's right operand: the second weight matrix transposed. -/
theorem W1_w2t (c : Dev nD) : W1 m ρ c (Proc.devRef .tc main_v7) = w2t (m ((c : Thread nD τ).loc main_arg4)) := by
  show after hostOps0 (W0 m ρ c) (Proc.devRef .tc main_v7) = _
  after_results; rfl
/-- The first host stretch does not write the node features. -/
theorem W1_x (c : Dev nD) : W1 m ρ c (Proc.devRef .tc main_arg0) = m ((c : Thread nD τ).loc main_arg0) := by
  show after hostOps0 (W0 m ρ c) (Proc.devRef .tc main_arg0) = _
  after_results <;> rfl
/-- The first host stretch does not write the first bias. -/
theorem W1_b1 (c : Dev nD) : W1 m ρ c (Proc.devRef .tc main_arg3) = m ((c : Thread nD τ).loc main_arg3) := by
  show after hostOps0 (W0 m ρ c) (Proc.devRef .tc main_arg3) = _
  after_results <;> rfl
/-- The first host stretch does not write the second bias. -/
theorem W1_b2 (c : Dev nD) : W1 m ρ c (Proc.devRef .tc main_arg5) = m ((c : Thread nD τ).loc main_arg5) := by
  show after hostOps0 (W0 m ρ c) (Proc.devRef .tc main_arg5) = _
  after_results <;> rfl

/-! ## After region 0, and the first layer -/

/-- Region 0 leaves the first dense product in its output array. -/
theorem W2_h1 (c : Dev nD) : W2 m ρ c (Proc.devRef .tc main_v8)
    = Dense0.prod (m ((c : Thread nD τ).loc main_arg0)) (w1t (m ((c : Thread nD τ).loc main_arg2))) := by
  refine (W2_arr m ρ c 2).trans ((Dense0.final (V1 m ρ) c).trans ?_)
  show Dense0.prod (W1 m ρ c (Proc.devRef .tc main_arg0)) (W1 m ρ c (Proc.devRef .tc main_v5)) = _
  rw [W1_x, W1_w1t]

/-- The first layer's output in terms of the launch memory. -/
theorem W3_out1 (c : Dev nD) : W3 m ρ c (Proc.devRef .tc main_v59)
    = aggregate (Dense0.prod (m ((c : Thread nD τ).loc main_arg0)) (w1t (m ((c : Thread nD τ).loc main_arg2))))
        (src (m ((c : Thread nD τ).loc main_arg1))) (dst (m ((c : Thread nD τ).loc main_arg1))) (m ((c : Thread nD τ).loc main_arg3)) := by
  refine (layer1_stretch (W2 m ρ c)).trans ?_
  rw [W2_h1, W2_of_ne m ρ c main_v1 (by decide), W2_of_ne m ρ c main_v3 (by decide), W2_of_ne m ρ c main_arg3 (by decide),
    W1_src, W1_dst, W1_b1]

/-! ## Buffers the middle segments leave alone -/

/-- The second host stretch (the first layer) does not write the sources. -/
theorem layer1_keeps_src (Z : Valuation τ sig (Elt Ideal)) : after hostOps1 Z (Proc.devRef .tc main_v1) = Z (Proc.devRef .tc main_v1) := by
  after_results_simp <;> rfl
/-- The third host stretch (the activation) does not write the sources. -/
theorem act_keeps_src (Z : Valuation τ sig (Elt Ideal)) : after hostOps1_1 Z (Proc.devRef .tc main_v1) = Z (Proc.devRef .tc main_v1) := by
  after_results <;> rfl
/-- At region 1's entry the sources still holds what the first host stretch left there: neither region 0 nor the two host
    stretches after it write it. -/
theorem W4_src (c : Dev nD) : W4 m ρ c (Proc.devRef .tc main_v1) = W1 m ρ c (Proc.devRef .tc main_v1) :=
  (act_keeps_src (W3 m ρ c)).trans ((layer1_keeps_src (W2 m ρ c)).trans (W2_of_ne m ρ c main_v1 (by decide)))

/-- The second host stretch (the first layer) does not write the destinations. -/
theorem layer1_keeps_dst (Z : Valuation τ sig (Elt Ideal)) : after hostOps1 Z (Proc.devRef .tc main_v3) = Z (Proc.devRef .tc main_v3) := by
  after_results_simp <;> rfl
/-- The third host stretch (the activation) does not write the destinations. -/
theorem act_keeps_dst (Z : Valuation τ sig (Elt Ideal)) : after hostOps1_1 Z (Proc.devRef .tc main_v3) = Z (Proc.devRef .tc main_v3) := by
  after_results <;> rfl
/-- At region 1's entry the destinations still holds what the first host stretch left there: neither region 0 nor the two host
    stretches after it write it. -/
theorem W4_dst (c : Dev nD) : W4 m ρ c (Proc.devRef .tc main_v3) = W1 m ρ c (Proc.devRef .tc main_v3) :=
  (act_keeps_dst (W3 m ρ c)).trans ((layer1_keeps_dst (W2 m ρ c)).trans (W2_of_ne m ρ c main_v3 (by decide)))

/-- The second host stretch (the first layer) does not write the second weight operand. -/
theorem layer1_keeps_w2t (Z : Valuation τ sig (Elt Ideal)) : after hostOps1 Z (Proc.devRef .tc main_v7) = Z (Proc.devRef .tc main_v7) := by
  after_results_simp <;> rfl
/-- The third host stretch (the activation) does not write the second weight operand. -/
theorem act_keeps_w2t (Z : Valuation τ sig (Elt Ideal)) : after hostOps1_1 Z (Proc.devRef .tc main_v7) = Z (Proc.devRef .tc main_v7) := by
  after_results <;> rfl
/-- At region 1's entry the second weight operand still holds what the first host stretch left there: neither region 0 nor the two host
    stretches after it write it. -/
theorem W4_w2t (c : Dev nD) : W4 m ρ c (Proc.devRef .tc main_v7) = W1 m ρ c (Proc.devRef .tc main_v7) :=
  (act_keeps_w2t (W3 m ρ c)).trans ((layer1_keeps_w2t (W2 m ρ c)).trans (W2_of_ne m ρ c main_v7 (by decide)))

/-- The second host stretch (the first layer) does not write the second bias. -/
theorem layer1_keeps_b2 (Z : Valuation τ sig (Elt Ideal)) : after hostOps1 Z (Proc.devRef .tc main_arg5) = Z (Proc.devRef .tc main_arg5) := by
  after_results_simp <;> rfl
/-- The third host stretch (the activation) does not write the second bias. -/
theorem act_keeps_b2 (Z : Valuation τ sig (Elt Ideal)) : after hostOps1_1 Z (Proc.devRef .tc main_arg5) = Z (Proc.devRef .tc main_arg5) := by
  after_results <;> rfl
/-- At region 1's entry the second bias still holds what the first host stretch left there: neither region 0 nor the two host
    stretches after it write it. -/
theorem W4_b2 (c : Dev nD) : W4 m ρ c (Proc.devRef .tc main_arg5) = W1 m ρ c (Proc.devRef .tc main_arg5) :=
  (act_keeps_b2 (W3 m ρ c)).trans ((layer1_keeps_b2 (W2 m ρ c)).trans (W2_of_ne m ρ c main_arg5 (by decide)))

/-! ## After the third host stretch and region 1 -/

/-- Region 1 leaves the second dense product in its output array. -/
theorem W5_h2 (c : Dev nD) : W5 m ρ c (Proc.devRef .tc main_v61)
    = Dense1.prod (relu (aggregate (Dense0.prod (m ((c : Thread nD τ).loc main_arg0)) (w1t (m ((c : Thread nD τ).loc main_arg2))))
          (src (m ((c : Thread nD τ).loc main_arg1))) (dst (m ((c : Thread nD τ).loc main_arg1))) (m ((c : Thread nD τ).loc main_arg3))))
        (w2t (m ((c : Thread nD τ).loc main_arg4))) := by
  refine (W5_arr m ρ c 2).trans ((Dense1.final (V4 m ρ) c).trans ?_)
  show Dense1.prod (W4 m ρ c (Proc.devRef .tc main_v60)) (W4 m ρ c (Proc.devRef .tc main_v7)) = _
  rw [show W4 m ρ c (Proc.devRef .tc main_v60) = relu (W3 m ρ c (Proc.devRef .tc main_v59)) from act_stretch (W3 m ρ c),
    W3_out1, W4_w2t, W1_w2t]

/-! ## The last host stretch: the second layer, and the result -/

/-- The kernel program's result as a function of its arguments: two layers over its two blocked products. -/
def result (x : (⟨S50000x512, .f32⟩ : BufTy).Contents (Elt Ideal)) (e : (⟨S2x400000, .i32⟩ : BufTy).Contents (Elt Ideal))
    (w1 : (⟨S256x512, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal)) : Feat Ideal :=
  aggregate (Dense1.prod (relu (aggregate (Dense0.prod x (w1t w1)) (src e) (dst e) b1)) (w2t w2)) (src e) (dst e) b2

/-- The result buffer after the last segment is that function of the launch memory's arguments. -/
theorem W6_result (c : Dev nD) : W6 m ρ c (Proc.devRef .tc main_v112)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (layer2_stretch (W5 m ρ c)).trans ?_
  rw [W5_h2, W5_of_ne m ρ c main_v1 (by decide), W5_of_ne m ρ c main_v3 (by decide), W5_of_ne m ρ c main_arg5 (by decide),
    W4_src, W4_dst, W4_b2, W1_src, W1_dst, W1_b2]
  rfl

/-- The kernel program's run with its result at that function of the arguments. -/
theorem run : θ_run defs (onTc (τ := τ) (main (F := Ideal))) ⟨m, fun _ => 0, ρ⟩ (fun r => ∀ c : Dev nD,
      r.2.mem ((c.tc : Thread nD τ).loc main_v112)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_result m ρ c), (h c).2⟩) (Cert.KernelIdeal.Named.run_named m ρ)

end Cert.KernelIdeal.Layers

end
-- ==== Proof.Bridge.lean ====
/-
  The one place where the two programs differ: each dense product. The reference multiplies on the host, `x · Wᵀ` as one
  `dot_general` contracting the columns of `x` with the rows of `Wᵀ`; the kernel multiplies row block by row block on the
  matrix unit, after casting both operands to bf16. At the extended reals both are, entry by entry, the sum over the
  contracted axis of a row of the left operand against a column of the transposed weights, and the cast changes nothing:
  the two products are the same matrix. Nothing about the extended reals' arithmetic is used beyond that: no sum is
  reordered and no factor moved, so finiteness of the inputs is never needed.
-/
import proofs.«148515_j14336600834353_1_alg».proof.Proof.Gen.ReferenceIdeal.Read
import proofs.«148515_j14336600834353_1_alg».proof.Proof.RefLayers
import proofs.«148515_j14336600834353_1_alg».proof.Proof.KernelLayers

noncomputable section

namespace Cert.Bridge

open Idealize.ShloMosaic Idealize.ShloMosaic.TcCoe Idealize.SL.Sem Idealize.ShloMosaic.SageSpec
open Cert.KernelIdeal.Spec

/-- The reference's first `dot_general` has the plain "rows by columns" dimension numbers. -/
theorem plain1 : PlainDot (n := 50000) (k := 512) (m := 256) Cert.ReferenceIdeal.dot_S50000x512_S512x256_S50000x256_1_0_0_1_n_n where
  rank := rfl
  size := fun _ => rfl
  l0 := Cert.ReferenceIdeal.Read.lhs_main_v5_0
  l1 := fun i q _ => Cert.ReferenceIdeal.Read.lhs_main_v5_1 i q
  r0 := fun i q _ => Cert.ReferenceIdeal.Read.rhs_main_v5_0 i q
  r1 := Cert.ReferenceIdeal.Read.rhs_main_v5_1

/-- So has its second. -/
theorem plain2 : PlainDot (n := 50000) (k := 256) (m := 256) Cert.ReferenceIdeal.dot_S50000x256_S256x256_S50000x256_1_0_0_1_n_n where
  rank := rfl
  size := fun _ => rfl
  l0 := Cert.ReferenceIdeal.Read.lhs_main_v59_0
  l1 := fun i q _ => Cert.ReferenceIdeal.Read.lhs_main_v59_1 i q
  r0 := fun i q _ => Cert.ReferenceIdeal.Read.rhs_main_v59_0 i q
  r1 := Cert.ReferenceIdeal.Read.rhs_main_v59_1

/-- The host's first product is the kernel's blocked one. -/
theorem dense1_eq (x : (⟨Cert.ReferenceIdeal.S50000x512, .f32⟩ : BufTy).Contents (Elt Ideal)) (w : (⟨Cert.ReferenceIdeal.S256x512, .f32⟩ : BufTy).Contents (Elt Ideal)) :
    Cert.ReferenceIdeal.Layers.dense1 (F := Ideal) x w = Cert.KernelIdeal.Dense0.prod x (Cert.KernelIdeal.Layers.w1t w) := by
  funext j
  unfold Cert.ReferenceIdeal.Layers.dense1
  exact dotGeneral_at plain1 none _ _ j

/-- The host's second product is the kernel's blocked one. -/
theorem dense2_eq (y : Feat Ideal) (w : (⟨Cert.ReferenceIdeal.S256x256, .f32⟩ : BufTy).Contents (Elt Ideal)) :
    Cert.ReferenceIdeal.Layers.dense2 (F := Ideal) y w = Cert.KernelIdeal.Dense1.prod y (Cert.KernelIdeal.Layers.w2t w) := by
  funext j
  unfold Cert.ReferenceIdeal.Layers.dense2
  exact dotGeneral_at plain2 none _ _ j

/-- The reference's result is the kernel's function of the same arguments. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v110 (F := Ideal) m c
      = Cert.KernelIdeal.Layers.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  rw [Cert.ReferenceIdeal.Layers.res_eq, dense1_eq, dense2_eq]
  rfl

end Cert.Bridge

end
-- ==== Proof.lean ====
/-
  A two-layer graph convolution, kernel against reference, over the extended reals.

  Each layer is `out = Â · (X Wᵀ) + b` with `Â = D^(-1/2) (A + I) D^(-1/2)`: a dense product followed, on the host in both programs,
  by the same gathers and scatter-adds over the edge list (Proof/GcnLayer.lean keeps that part as one function of the dense product).
  The programs differ only in the two dense products: the reference computes each as one host `dot_general`; the kernel
  computes each in 25 row blocks of 2000 on the matrix unit, operands cast to bf16, into a zero accumulator. At the extended
  reals the cast is the identity and both products are the row-by-column sums (Proof/Dense0.lean and Proof/Dense1.lean for the
  blocked product and its 25 blocks tiling the output; Proof/Bridge.lean for the host's), so the results are one function
  of the arguments (Proof/KernelLayers.lean, Proof/RefLayers.lean). No sum is reordered and no factor moved across a sum, so
  the precondition (finite inputs) is not used by the value claim.

  The three frames are the generated ones (the reference's is its generated run with the result dropped); the ideal pass
  rewrote nothing, so `preserves` is trivial.
-/
import proofs.«148515_j14336600834353_1_alg».proof.Defs
import proofs.«148515_j14336600834353_1_alg».proof.Proof.Gen.Kernel
import proofs.«148515_j14336600834353_1_alg».proof.Proof.Gen.Kernel.Skeleton
import proofs.«148515_j14336600834353_1_alg».proof.Proof.Gen.Kernel.Launch
import proofs.«148515_j14336600834353_1_alg».proof.Proof.Gen.Kernel.Points
import proofs.«148515_j14336600834353_1_alg».proof.Proof.Gen.Kernel.Frame
import proofs.«148515_j14336600834353_1_alg».proof.Proof.Gen.KernelIdeal
import proofs.«148515_j14336600834353_1_alg».proof.Proof.Gen.KernelIdeal.Skeleton
import proofs.«148515_j14336600834353_1_alg».proof.Proof.Gen.KernelIdeal.Launch
import proofs.«148515_j14336600834353_1_alg».proof.Proof.Gen.KernelIdeal.Points
import proofs.«148515_j14336600834353_1_alg».proof.Proof.Gen.KernelIdeal.Frame
import proofs.«148515_j14336600834353_1_alg».proof.Proof.Gen.ReferenceIdeal
import proofs.«148515_j14336600834353_1_alg».proof.Proof.Gen.ReferenceIdeal.Run
import proofs.«148515_j14336600834353_1_alg».proof.Proof.Gen.ReferenceIdeal.Read
import proofs.«148515_j14336600834353_1_alg».proof.Proof.Gen.Pre_finite_inputs
import proofs.«148515_j14336600834353_1_alg».proof.Proof.Bridge
import Idealize.ShloMosaic.Adequacy
import Idealize.ShloMosaic.Init

noncomputable section

namespace Cert.Proof

open Idealize.ShloMosaic Idealize.SL.Sem

/-- The word-level kernel runs and keeps its arguments: the generated frame over its two regions. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at the same function of the (agreeing) arguments: two layers over
    the two dense products, which are the same matrices on the matrix unit and on the host. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  rw [Cert.Bridge.result_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
